-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S1024x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S1024x256 : Shape := ⟨2, ![1024, 256]⟩
abbrev S1x1024 : Shape := ⟨2, ![1, 1024]⟩
abbrev S1024x1024 : Shape := ⟨2, ![1024, 1024]⟩

abbrev nBuf : Space → Nat
  | .hbm => 11
  | .vmem => 17
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1024x4096, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x4096.size a
  hwx0_0 : ∀ i : grid0.Coords, EltTy.bits .f32 = 32 ∨ (Rect.block (s := S1024x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x4096.size a
  hwx0_2 : ∀ i : grid0.Coords, EltTy.bits .f32 = 32 ∨ (Rect.block (s := S4096x4096) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x4096.size a
  hwx0_3 : ∀ i : grid0.Coords, EltTy.bits .f32 = 32 ∨ (Rect.block (s := S4096x4096) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x4096.size a
  hwx0_7 : ∀ i : grid0.Coords, EltTy.bits .f32 = 32 ∨ (Rect.block (s := S1024x4096) S1024x1024.size (cc0_transform_7 i) (hinb0_7 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096, .f32⟩
  | .hbm, ⟨10, _⟩ => ⟨S4096, .f32⟩
  | .hbm, ⟨11, _⟩ => ⟨S1024x4096, .f32⟩
  | .hbm, ⟨12, _⟩ => ⟨S1x4096, .f32⟩
  | .hbm, ⟨13, _⟩ => ⟨S1024x4096, .f32⟩
  | .hbm, ⟨14, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S1024x4096_S4096x4096_S1024x4096_1_1_0_0_n_n_wf : DotDims.WF S1024x4096 S4096x4096 S1024x4096 [1] [1] [0] [0] [] []

variable [Facts₀]

def dot_S1024x4096_S4096x4096_S1024x4096_1_1_0_0_n_n : DotDims S1024x4096 S4096x4096 S1024x4096 where
  lhsContracting := [1]
  rhsContracting := [1]
  lhsNonContracting := [0]
  rhsNonContracting := [0]
  lhsBatch := []
  rhsBatch := []
  wf := dot_S1024x4096_S4096x4096_S1024x4096_1_1_0_0_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«108699_j56573309224151_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«108699_j56573309224151_1_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«108699_j56573309224151_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LibRowsDims.lean ====
/-
  Products with the rows of a matrix, `x · wᵀ`, recognised from a contraction's axis lists, and a vector program's
  spelling of one.

  For a product `[a, K] × [N, K] → [a, N]` with no batch axis, the second axis of both operands summed, and the two
  first axes carried in order, the left operand is read at `(row, k)` and the right at `(column, k)`: the record is a
  `RowsDot` (`rowsDot_of_axes`, generic in the extents; the six axis lists are equations that hold by `rfl` of any
  record written with those lists). Then a vector program's matrix product of this kind into the zero accumulator,
  at the ideal values, is `prodRowT` entry by entry, whatever the operands' float formats (`matmul_zero_rows_apply`).
-/
import Idealize.ShloMosaic.PureOps.Dims
import proofs.«108699_j56573309224151_1_alg».proof.Proof.LibRowsDot
import proofs.«108699_j56573309224151_1_alg».proof.Proof.LibPlainDot

noncomputable section

namespace Cert.DenseRows

open Idealize.ShloMosaic Idealize.ShloMosaic.ValueIdx
open Cert.DenseLayer (Mat coord_val_congr)

variable {a K N : ℕ}

/-- Dimension numbers with no batch axis that sum axis 1 of both operands and carry the left operand's axis 0 and
    then the right operand's axis 0 are those of a product with the rows of the right operand. -/
theorem rowsDot_of_axes (d : DotDims ⟨2, ![a, K]⟩ ⟨2, ![N, K]⟩ ⟨2, ![a, N]⟩)
    (hlc : d.lhsContracting = [1]) (hrc : d.rhsContracting = [1])
    (hln : d.lhsNonContracting = [0]) (hrn : d.rhsNonContracting = [0])
    (hlb : d.lhsBatch = []) (hrb : d.rhsBatch = []) : RowsDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => by
    have hb : (0 : Fin (⟨2, ![N, K]⟩ : Shape).rank) ∉ d.rhsBatch := by rw [hrb]; exact List.not_mem_nil
    have hn : (0 : Fin (⟨2, ![N, K]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])
  rhs1 := fun i q => d.rhsIdx_val_of_single hrc i q

/-- A vector program's matrix product along the second axis of both operands into the zero accumulator, at the
    ideal values, is `prodRowT` entry by entry. -/
theorem matmul_zero_rows_apply {φ₁ φ₂ : FTy} {d : DotDims ⟨2, ![a, K]⟩ ⟨2, ![N, K]⟩ ⟨2, ![a, N]⟩} (hd : RowsDot d)
    (prec : Option ContractPrecision) (x : FVec Ideal ⟨2, ![a, K]⟩ φ₁) (w : FVec Ideal ⟨2, ![N, K]⟩ φ₂)
    (i : (⟨2, ![a, N]⟩ : Shape).Idx) :
    FloatOps.matmul d prec x w (constant ⟨2, ![a, N]⟩ .f32 0x00000000#32) i = prodRowT x w (i 0) (i 1) :=
  (Ideal.matmul_constant_zero_apply d prec x w i).trans (sum_contr_eq_prodRowT hd x w i)

end Cert.DenseRows

end
-- ==== Proof.LibBlockedRowsDot.lean ====
/-
  A product with the rows of a matrix, `x · wᵀ`, taken a block of columns at a time.

  For `x : [a, K]` and `w : [N, K]`, entry `(r, q)` of `x · wᵀ` is the sum over the `K` columns of
  `x (r, k) * w (q, k)` (`prodRowT`). When `K = T * B`, cut the columns into `T` consecutive blocks of `B`:

  * `blkCol kt j` is column `j` of block `kt` as a column of the whole, number `j + B * kt`;
  * `sum_eq_sum_blocks`: a sum over all columns is the sum over the blocks of the sums inside each block, in any
    commutative monoid, so on the extended reals without any finiteness;
  * `blockDot kt` is block `kt`'s part of the entry, `prodRowT_eq_sum_blockDot` the entry as the sum of the parts,
    and `prodRowT_eq_blockDot` recognises a part in the product of two `B`-column matrices that are slices of `x`
    and `w` (of any heights: only one row of each is read);
  * `partialDot k` is the sum of the parts of blocks `0 … k`: what an accumulator that starts from the first block's
    part (`partialDot_zero`) and grows by one block per step (`partialDot_succ`) holds after step `k`, and after the
    last block the whole entry (`partialDot_last`).

  All are generic in the extents.
-/
import Mathlib.Algebra.BigOperators.Fin
import Mathlib.Data.Fintype.BigOperators
import Mathlib.Logic.Equiv.Fin.Basic
import proofs.«108699_j56573309224151_1_alg».proof.Proof.LibRowsDot

noncomputable section

namespace Cert.BlockedRows

open Idealize.ShloMosaic Idealize.ShloMosaic.ValueIdx
open Cert.DenseLayer (Mat)
open Cert.DenseRows (prodRowT)

section Blocks

variable {T B K : ℕ} (hK : T * B = K)

/-- Column `j` of block `kt`, as a column of the whole: number `j + B * kt`. -/
def blkCol (kt : Fin T) (j : Fin B) : Fin K := Fin.cast hK (finProdFinEquiv (kt, j))

theorem blkCol_val (kt : Fin T) (j : Fin B) : (blkCol hK kt j).val = j.val + B * kt.val := rfl

/-- A sum over all the columns is the sum over the blocks of the sums inside each block. -/
theorem sum_eq_sum_blocks {M : Type} [AddCommMonoid M] (f : Fin K → M) :
    ∑ i : Fin K, f i = ∑ kt : Fin T, ∑ j : Fin B, f (blkCol hK kt j) := by
  subst hK
  have h := (Equiv.sum_comp (finProdFinEquiv (m := T) (n := B)) f).symm
  rw [h, Fintype.sum_prod_type]
  rfl

variable {a N : ℕ}

/-- The part of entry `(r, q)` of `x · wᵀ` that block `kt` of the columns contributes. -/
def blockDot (x : Mat a K) (w : Mat N K) (r : Fin a) (q : Fin N) (kt : Fin T) : EReal :=
  ∑ j : Fin B, x (ix2 r (blkCol hK kt j)) * w (ix2 q (blkCol hK kt j))

/-- The whole contraction is the sum of the blocks' parts. -/
theorem prodRowT_eq_sum_blockDot (x : Mat a K) (w : Mat N K) (r : Fin a) (q : Fin N) :
    prodRowT x w r q = ∑ kt : Fin T, blockDot hK x w r q kt :=
  sum_eq_sum_blocks hK fun k => x (ix2 r k) * w (ix2 q k)

/-- A product of two `B`-column matrices whose rows `p` and `s` are block `kt` of rows `r` of `x` and `q` of `w`
    is that block's part. -/
theorem prodRowT_eq_blockDot {a' N' : ℕ} (xb : Mat a' B) (wb : Mat N' B) (x : Mat a K) (w : Mat N K)
    (p : Fin a') (s : Fin N') (r : Fin a) (q : Fin N) (kt : Fin T)
    (hx : ∀ j, xb (ix2 p j) = x (ix2 r (blkCol hK kt j))) (hw : ∀ j, wb (ix2 s j) = w (ix2 q (blkCol hK kt j))) :
    prodRowT xb wb p s = blockDot hK x w r q kt :=
  Finset.sum_congr rfl fun j _ => by rw [hx j, hw j]

/-- Block number `kt`'s part when `kt` is a block, zero past the last block. -/
def blockDotN (x : Mat a K) (w : Mat N K) (r : Fin a) (q : Fin N) (kt : ℕ) : EReal :=
  if h : kt < T then blockDot hK x w r q ⟨kt, h⟩ else 0

theorem blockDotN_of_lt (x : Mat a K) (w : Mat N K) (r : Fin a) (q : Fin N) (kt : ℕ) (h : kt < T) :
    blockDotN hK x w r q kt = blockDot hK x w r q ⟨kt, h⟩ := dif_pos h

/-- The sum of the parts of blocks `0 … k`: what an accumulator holds after step `k`. -/
def partialDot (x : Mat a K) (w : Mat N K) (r : Fin a) (q : Fin N) (k : ℕ) : EReal :=
  ∑ kt ∈ Finset.range (k + 1), blockDotN hK x w r q kt

theorem partialDot_zero (x : Mat a K) (w : Mat N K) (r : Fin a) (q : Fin N) (h : 0 < T) :
    partialDot hK x w r q 0 = blockDot hK x w r q ⟨0, h⟩ := by
  unfold partialDot
  rw [Finset.sum_range_one, blockDotN_of_lt hK x w r q 0 h]

theorem partialDot_succ (x : Mat a K) (w : Mat N K) (r : Fin a) (q : Fin N) (k : ℕ) (h : k + 1 < T) :
    partialDot hK x w r q (k + 1) = partialDot hK x w r q k + blockDot hK x w r q ⟨k + 1, h⟩ := by
  unfold partialDot
  rw [Finset.sum_range_succ _ (k + 1), blockDotN_of_lt hK x w r q (k + 1) h]

/-- After the last block the accumulator holds the whole contraction. -/
theorem partialDot_last (x : Mat a K) (w : Mat N K) (r : Fin a) (q : Fin N) (k : ℕ) (h : k + 1 = T) :
    partialDot hK x w r q k = prodRowT x w r q := by
  unfold partialDot
  rw [prodRowT_eq_sum_blockDot hK, h, Finset.sum_range]
  exact Finset.sum_congr rfl fun kt _ => blockDotN_of_lt hK x w r q kt.val kt.isLt

end Blocks

end Cert.BlockedRows

end
-- ==== Proof.SampledLinear.lean ====
/-
  A linear layer with sampled parameters, as plain functions of arrays of extended reals.

  The layer draws its weight and its bias by reparameterisation: each is `mu + eps * sigma`, entry by entry
  (`sampled`). For `x : [a, K]`, a weight stored as `[N, K]` and a bias `[N]`, the result at `(r, q)` is the product
  of row `r` of `x` with ROW `q` of the sampled weight (`prodRowT`: `x · wᵀ`), plus entry `q` of the sampled bias
  (`layer`).
-/
import proofs.«108699_j56573309224151_1_alg».proof.Proof.LibRowsDims
import proofs.«108699_j56573309224151_1_alg».proof.Proof.LibBlockedRowsDot

noncomputable section

namespace Cert.SampledLinear

open Idealize.ShloMosaic Idealize.ShloMosaic.ValueIdx
open Cert.DenseLayer (Mat)
open Cert.DenseRows (prodRowT)

/-! ## The layer -/

/-- A reparameterised sample: `mu + eps * sigma`, entry by entry. -/
def sampled {S : Shape} (mu sig eps : S.Idx → EReal) : S.Idx → EReal := fun i => mu i + eps i * sig i

theorem sampled_apply {S : Shape} (mu sig eps : S.Idx → EReal) (i : S.Idx) :
    sampled mu sig eps i = mu i + eps i * sig i := rfl

/-- The layer: `x · wᵀ + b` with `w` and `b` sampled. -/
def layer {a K N : ℕ} (x : Mat a K) (wmu wsig weps : Mat N K) (bmu bsig beps : (⟨1, ![N]⟩ : Shape).Idx → EReal) :
    Mat a N :=
  fun i => prodRowT x (sampled wmu wsig weps) (i 0) (i 1) + sampled bmu bsig beps (ix1 (i 1))

theorem layer_apply {a K N : ℕ} (x : Mat a K) (wmu wsig weps : Mat N K) (bmu bsig beps : (⟨1, ![N]⟩ : Shape).Idx → EReal)
    (r : Fin a) (q : Fin N) :
    layer x wmu wsig weps bmu bsig beps (ix2 r q)
      = prodRowT x (sampled wmu wsig weps) r q + sampled bmu bsig beps (ix1 q) := rfl

end Cert.SampledLinear

end
-- ==== Proof.RefValue.lean ====
/-
  The reference program's result is the layer.

  The host program forms the sampled weight `arg1 + arg5 * arg2` and the sampled bias `arg3 + arg6 * arg4`, contracts
  the second axis of `arg0` with the second axis of the weight, lays the bias out as a row over the 1024 rows, and
  adds. Read at `(r, q)` this is the product of row `r` of `arg0` with row `q` of the sampled weight, plus entry `q`
  of the sampled bias: `SampledLinear.layer` of the seven arguments.
-/
import proofs.«108699_j56573309224151_1_alg».proof.Proof.Gen.ReferenceIdeal.Read
import proofs.«108699_j56573309224151_1_alg».proof.Proof.SampledLinear

noncomputable section

namespace Cert.ReferenceIdeal.RefValue

open Cert.ReferenceIdeal Cert.ReferenceIdeal.Read Idealize.ShloMosaic Idealize.ShloMosaic.ValueIdx
open Cert.SampledLinear (layer sampled)
open Cert.DenseRows (prodRowT)

/-- The contraction reads the left operand at `(r, k)` … -/
theorem lidx_eq (r : Fin 1024) (q : Fin 4096) (k : Fin 4096) : lidx_main_v4 (ix2 r q) k = ix2 r k :=
  funext fun a => Fin.ext (by match a with | ⟨0, _⟩ => rfl | ⟨1, _⟩ => rfl)

/-- … and the right operand at `(q, k)`: row `q` of the weight. -/
theorem ridx_eq (r : Fin 1024) (q : Fin 4096) (k : Fin 4096) : ridx_main_v4 (ix2 r q) k = ix2 q k :=
  funext fun a => Fin.ext (by match a with | ⟨0, _⟩ => rfl | ⟨1, _⟩ => rfl)

/-- The two broadcasts read the bias at the column. -/
theorem bidx_eq (r : Fin 1024) (q : Fin 4096) : idx_main_v5 (idx_main_v6 (ix2 r q)) = ix1 q :=
  funext fun a => Fin.ext (by match a with | ⟨0, _⟩ => rfl)

/-- The reference's last stage, at the ideal values, is the layer of its seven arguments. -/
theorem result_eq (x0 : (⟨S1024x4096, .f32⟩ : BufTy).Contents (Elt Ideal))
    (x1 x2 : (⟨S4096x4096, .f32⟩ : BufTy).Contents (Elt Ideal)) (x3 x4 : (⟨S4096, .f32⟩ : BufTy).Contents (Elt Ideal))
    (x5 : (⟨S4096x4096, .f32⟩ : BufTy).Contents (Elt Ideal)) (x6 : (⟨S4096, .f32⟩ : BufTy).Contents (Elt Ideal)) :
    val_main_v7 (F := Ideal) x0 x1 x2 x3 x4 x5 x6 = layer x0 x1 x2 x5 x3 x4 x6 := by
  funext i
  obtain ⟨r, q, rfl⟩ : ∃ (r : Fin 1024) (q : Fin 4096), i = ix2 r q := ⟨i 0, i 1, eq_ix2 i⟩
  rw [val_main_v7_apply, val_main_v4_apply, val_main_v6_apply, val_main_v5_apply, bidx_eq]
  simp only [lidx_eq, ridx_eq]
  rfl

end Cert.ReferenceIdeal.RefValue

end
-- ==== Proof.Pieces.lean ====
/-
  What each case of the kernel body leaves behind, as the body's own stored values.

  The body runs in three cases, by the step `k` of the contraction axis: the first step (`k = 0`), a middle step, and
  the last step (`k = 15`). Every store writes a whole buffer through the rectangle at offset zero, so what a buffer
  holds afterwards is the last value stored into it, and every load reads a whole buffer.

  * First step: the accumulator is reset to the zero block and then, read back, stepped: it ends at the step's value
    over the reset block (`scratch_first`).
  * Middle step: the accumulator ends at the step's value over what the previous point left (`scratch_middle`).
  * Last step: the same for the accumulator (`scratch_last`), and the output block receives the epilogue's value over
    the accumulator just stored (`out_last`).

  In each, the step reads the weight-mean block from window 1, the noise block from window 3, the deviation block
  from window 2 and the `x` block from window 0; the epilogue reads the bias mean from window 4, the bias noise from
  window 6 and the bias deviation from window 5.
-/
import proofs.«108699_j56573309224151_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every access of the body starts at offset zero. -/
theorem hz : (![0, 0] : Fin 2 → Nat) = fun _ => 0 := funext fun a => by fin_cases a <;> rfl

/-- The first step leaves the accumulator at the step over the reset block. -/
theorem scratch_first (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i) (x0 x1 x2 x3 : Vec F S1024x256 .f32) (x4 x5 x6 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x1 x3 x2 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, harg4.read_unread, harg5.read_unread, harg6.read_unread, harg7.read_unread, harg8.read_unread, harg10.read_unread, View.ld_unit_zero (S := S1024x256) hz, View.ld_unit_zero (S := S1024x1024) hz, View.ld_unit_zero (S := S1x1024) hz]

/-- A middle step leaves the accumulator at the step over what it held. -/
theorem scratch_middle (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i) (x0 x1 x2 x3 : Vec F S1024x256 .f32) (x4 x5 x6 : Vec F S1x1024 .f32) (xs0 : Vec F S1024x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x1 x3 x2 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S1024x256) hz, View.ld_unit_zero (S := S1024x1024) hz, View.ld_unit_zero (S := S1x1024) hz]

/-- The last step leaves the accumulator at the step over what it held … -/
theorem scratch_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i) (x0 x1 x2 x3 : Vec F S1024x256 .f32) (x4 x5 x6 : Vec F S1x1024 .f32) (xs0 : Vec F S1024x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x1 x3 x2 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S1024x256) hz, View.ld_unit_zero (S := S1024x1024) hz, View.ld_unit_zero (S := S1x1024) hz]

/-- … and the output block at the epilogue over that accumulator. -/
theorem out_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i) (x0 x1 x2 x3 : Vec F S1024x256 .f32) (x4 x5 x6 : Vec F S1x1024 .f32) (xs0 : Vec F S1024x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 x4 x6 x5 (k0_pay2 x1 x3 x2 x0 xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.readCov_unit_zero (S := S1024x1024) _ hz, View.ld_unit_zero (S := S1024x256) hz, View.ld_unit_zero (S := S1024x1024) hz, View.ld_unit_zero (S := S1x1024) hz]

end Cert.KernelIdeal.Pieces

end
-- ==== Proof.Blocks.lean ====
/-
  The input windows' blocks at a grid point, read off the whole argument arrays.

  The grid is `4 × 16`: point `t` is output tile `n = t / 16` (1024 output columns) at step `k = t % 16` of the
  contraction (256 columns of the contracted axis). At that point

  * the `x` block is rows `0 … 1023`, contracted columns `256 k … 256 k + 255` of `arg0`;
  * the three weight blocks are rows `1024 n … 1024 n + 1023`, the same contracted columns, of `arg1` (mean), `arg2`
    (deviation) and `arg5` (noise);
  * the three bias blocks are columns `1024 n … 1024 n + 1023` of the `[1, 4096]` rows that the host reshapes of
    `arg3` (mean), `arg4` (deviation) and `arg6` (noise) make: entry `1024 n + q` of each vector.

  Each index map is decided once over the 64 points; a block's coordinate is the block index times the block size
  plus the coordinate inside the block.
-/
import proofs.«108699_j56573309224151_1_alg».proof.Proof.Gen.KernelIdeal.Frame
import proofs.«108699_j56573309224151_1_alg».proof.Proof.SampledLinear
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx
open Cert.BlockedRows (blkCol)

variable {F : FTy → Type} [FloatOps F]
variable (m : (ℓ : Loc nD τ sig) → Buf (Elt F) ℓ)

/-! ## The point's tile and step -/

/-- Sixteen blocks of 256 columns make the contracted axis. -/
theorem hK : 16 * 256 = 4096 := by norm_num

theorem lt64 (t : Fin cfg0.N) : t.val < 64 := lt_of_lt_of_eq t.isLt (show cfg0.N = 64 from N_0)

/-- The output tile of a point. -/
def tileOf (t : Fin cfg0.N) : Fin 4 := ⟨t.val / 16, by have := lt64 t; omega⟩
/-- The contraction step of a point. -/
def stepOf (t : Fin cfg0.N) : Fin 16 := ⟨t.val % 16, Nat.mod_lt _ (by decide)⟩
/-- Column `q` of tile `n`, as a column of the whole output (a row of the weight). -/
def tileCol (n : Fin 4) (q : Fin 1024) : Fin 4096 := ⟨1024 * n.val + q.val, by have := n.isLt; have := q.isLt; omega⟩

theorem tileOf_val (t : Fin cfg0.N) : (tileOf t).val = t.val / 16 := rfl
theorem stepOf_val (t : Fin cfg0.N) : (stepOf t).val = t.val % 16 := rfl
theorem tileCol_val (n : Fin 4) (q : Fin 1024) : (tileCol n q).val = 1024 * n.val + q.val := rfl

/-! ## The index maps, decided over the grid -/

theorem x_index : ∀ t : Fin cfg0.N, win0_0.index t (0 : Fin 2) = 0 ∧ win0_0.index t (1 : Fin 2) = t.val % 16 :=
  (by decide +kernel : ∀ t : Fin grid0.N, win0_0.index t (0 : Fin 2) = 0 ∧ win0_0.index t (1 : Fin 2) = t.val % 16)
theorem wmu_index : ∀ t : Fin cfg0.N, win0_1.index t (0 : Fin 2) = t.val / 16 ∧ win0_1.index t (1 : Fin 2) = t.val % 16 :=
  (by decide +kernel : ∀ t : Fin grid0.N, win0_1.index t (0 : Fin 2) = t.val / 16 ∧ win0_1.index t (1 : Fin 2) = t.val % 16)
theorem wsig_index : ∀ t : Fin cfg0.N, win0_2.index t (0 : Fin 2) = t.val / 16 ∧ win0_2.index t (1 : Fin 2) = t.val % 16 :=
  (by decide +kernel : ∀ t : Fin grid0.N, win0_2.index t (0 : Fin 2) = t.val / 16 ∧ win0_2.index t (1 : Fin 2) = t.val % 16)
theorem weps_index : ∀ t : Fin cfg0.N, win0_3.index t (0 : Fin 2) = t.val / 16 ∧ win0_3.index t (1 : Fin 2) = t.val % 16 :=
  (by decide +kernel : ∀ t : Fin grid0.N, win0_3.index t (0 : Fin 2) = t.val / 16 ∧ win0_3.index t (1 : Fin 2) = t.val % 16)
theorem bmu_index : ∀ t : Fin cfg0.N, win0_4.index t (0 : Fin 2) = 0 ∧ win0_4.index t (1 : Fin 2) = t.val / 16 :=
  (by decide +kernel : ∀ t : Fin grid0.N, win0_4.index t (0 : Fin 2) = 0 ∧ win0_4.index t (1 : Fin 2) = t.val / 16)
theorem bsig_index : ∀ t : Fin cfg0.N, win0_5.index t (0 : Fin 2) = 0 ∧ win0_5.index t (1 : Fin 2) = t.val / 16 :=
  (by decide +kernel : ∀ t : Fin grid0.N, win0_5.index t (0 : Fin 2) = 0 ∧ win0_5.index t (1 : Fin 2) = t.val / 16)
theorem beps_index : ∀ t : Fin cfg0.N, win0_6.index t (0 : Fin 2) = 0 ∧ win0_6.index t (1 : Fin 2) = t.val / 16 :=
  (by decide +kernel : ∀ t : Fin grid0.N, win0_6.index t (0 : Fin 2) = 0 ∧ win0_6.index t (1 : Fin 2) = t.val / 16)
theorem out_index : ∀ t : Fin cfg0.N, win0_7.index t (0 : Fin 2) = 0 ∧ win0_7.index t (1 : Fin 2) = t.val / 16 :=
  (by decide +kernel : ∀ t : Fin grid0.N, win0_7.index t (0 : Fin 2) = 0 ∧ win0_7.index t (1 : Fin 2) = t.val / 16)

/-! ## The blocks, at their literal types -/

abbrev xBlk (c : Dev nD) (t : Fin cfg0.N) : Vec F S1024x256 .f32 := iblk m c 0 t
abbrev wmuBlk (c : Dev nD) (t : Fin cfg0.N) : Vec F S1024x256 .f32 := iblk m c 1 t
abbrev wsigBlk (c : Dev nD) (t : Fin cfg0.N) : Vec F S1024x256 .f32 := iblk m c 2 t
abbrev wepsBlk (c : Dev nD) (t : Fin cfg0.N) : Vec F S1024x256 .f32 := iblk m c 3 t
abbrev bmuBlk (c : Dev nD) (t : Fin cfg0.N) : Vec F S1x1024 .f32 := iblk m c 4 t
abbrev bsigBlk (c : Dev nD) (t : Fin cfg0.N) : Vec F S1x1024 .f32 := iblk m c 5 t
abbrev bepsBlk (c : Dev nD) (t : Fin cfg0.N) : Vec F S1x1024 .f32 := iblk m c 6 t

/-! ## The matrix blocks -/

/-- The `x` block at `(p, j)` is `arg0` at row `p`, column `j` of the step's block. -/
theorem xBlk_apply (c : Dev nD) (t : Fin cfg0.N) (p : Fin 1024) (j : Fin 256) :
    xBlk m c t (ix2 p j) = m ((c : Thread nD τ).loc main_arg0) (ix2 p (blkCol hK (stepOf t) j)) := by
  unfold xBlk iblk
  rw [View.read_apply]
  show V m c main_arg0 _ = _
  rw [V_main_arg0]
  congr 1
  funext a
  apply Fin.ext
  match a with
  | ⟨0, _⟩ => show win0_0.index t 0 * 1024 + 1 * p.val = p.val; rw [(x_index t).1]; omega
  | ⟨1, _⟩ => show win0_0.index t 1 * 256 + 1 * j.val = j.val + 256 * (t.val % 16); rw [(x_index t).2]; omega

/-- The weight-mean block at `(q, j)` is `arg1` at the tile's row `q`, column `j` of the step's block. -/
theorem wmuBlk_apply (c : Dev nD) (t : Fin cfg0.N) (q : Fin 1024) (j : Fin 256) :
    wmuBlk m c t (ix2 q j) = m ((c : Thread nD τ).loc main_arg1) (ix2 (tileCol (tileOf t) q) (blkCol hK (stepOf t) j)) := by
  unfold wmuBlk iblk
  rw [View.read_apply]
  show V m c main_arg1 _ = _
  rw [V_main_arg1]
  congr 1
  funext a
  apply Fin.ext
  match a with
  | ⟨0, _⟩ => show win0_1.index t 0 * 1024 + 1 * q.val = 1024 * (t.val / 16) + q.val; rw [(wmu_index t).1]; omega
  | ⟨1, _⟩ => show win0_1.index t 1 * 256 + 1 * j.val = j.val + 256 * (t.val % 16); rw [(wmu_index t).2]; omega

/-- The weight-deviation block likewise, of `arg2`. -/
theorem wsigBlk_apply (c : Dev nD) (t : Fin cfg0.N) (q : Fin 1024) (j : Fin 256) :
    wsigBlk m c t (ix2 q j) = m ((c : Thread nD τ).loc main_arg2) (ix2 (tileCol (tileOf t) q) (blkCol hK (stepOf t) j)) := by
  unfold wsigBlk iblk
  rw [View.read_apply]
  show V m c main_arg2 _ = _
  rw [V_main_arg2]
  congr 1
  funext a
  apply Fin.ext
  match a with
  | ⟨0, _⟩ => show win0_2.index t 0 * 1024 + 1 * q.val = 1024 * (t.val / 16) + q.val; rw [(wsig_index t).1]; omega
  | ⟨1, _⟩ => show win0_2.index t 1 * 256 + 1 * j.val = j.val + 256 * (t.val % 16); rw [(wsig_index t).2]; omega

/-- The weight-noise block likewise, of `arg5`. -/
theorem wepsBlk_apply (c : Dev nD) (t : Fin cfg0.N) (q : Fin 1024) (j : Fin 256) :
    wepsBlk m c t (ix2 q j) = m ((c : Thread nD τ).loc main_arg5) (ix2 (tileCol (tileOf t) q) (blkCol hK (stepOf t) j)) := by
  unfold wepsBlk iblk
  rw [View.read_apply]
  show V m c main_arg5 _ = _
  rw [V_main_arg5]
  congr 1
  funext a
  apply Fin.ext
  match a with
  | ⟨0, _⟩ => show win0_3.index t 0 * 1024 + 1 * q.val = 1024 * (t.val / 16) + q.val; rw [(weps_index t).1]; omega
  | ⟨1, _⟩ => show win0_3.index t 1 * 256 + 1 * j.val = j.val + 256 * (t.val % 16); rw [(weps_index t).2]; omega

/-! ## The bias blocks: slices of the reshaped vectors -/

/-- The region finds the bias mean as the `[1, 4096]` row the host reshape of `arg3` made, -/
theorem V_bmu (c : Dev nD) : (V m c main_v0 : S1x4096.Idx → Elt F .f32)
    = shapeCast S1x4096 (m ((c : Thread nD τ).loc main_arg3)) shapeCasts_S4096_S1x4096 := by
  dsimp only [V, hostOps0]; after_results; rfl
/-- the bias deviation as that of `arg4`, -/
theorem V_bsig (c : Dev nD) : (V m c main_v1 : S1x4096.Idx → Elt F .f32)
    = shapeCast S1x4096 (m ((c : Thread nD τ).loc main_arg4)) shapeCasts_S4096_S1x4096 := by
  dsimp only [V, hostOps0]; after_results; rfl
/-- and the bias noise as that of `arg6`. -/
theorem V_beps (c : Dev nD) : (V m c main_v2 : S1x4096.Idx → Elt F .f32)
    = shapeCast S1x4096 (m ((c : Thread nD τ).loc main_arg6)) shapeCasts_S4096_S1x4096 := by
  dsimp only [V, hostOps0]; after_results; rfl

/-- The bias-mean block at `(0, q)` is entry `q` of the tile of `arg3`. -/
theorem bmuBlk_apply (c : Dev nD) (t : Fin cfg0.N) (u : Fin 1) (q : Fin 1024) :
    bmuBlk m c t (ix2 u q) = m ((c : Thread nD τ).loc main_arg3) (ix1 (tileCol (tileOf t) q)) := by
  unfold bmuBlk iblk
  rw [View.read_apply]
  show V m c main_v0 _ = _
  rw [V_bmu]
  refine Eq.trans (congrArg (shapeCast S1x4096 (m ((c : Thread nD τ).loc main_arg3)) shapeCasts_S4096_S1x4096)
    (?_ : _ = ix2 (0 : Fin 1) (tileCol (tileOf t) q))) (shapeCast_a_1a_apply _ _ _ _)
  funext a
  apply Fin.ext
  match a with
  | ⟨0, _⟩ => show win0_4.index t 0 * 1 + 1 * u.val = 0; rw [(bmu_index t).1]; omega
  | ⟨1, _⟩ => show win0_4.index t 1 * 1024 + 1 * q.val = 1024 * (t.val / 16) + q.val; rw [(bmu_index t).2]; omega

/-- The bias-deviation block likewise, of `arg4`. -/
theorem bsigBlk_apply (c : Dev nD) (t : Fin cfg0.N) (u : Fin 1) (q : Fin 1024) :
    bsigBlk m c t (ix2 u q) = m ((c : Thread nD τ).loc main_arg4) (ix1 (tileCol (tileOf t) q)) := by
  unfold bsigBlk iblk
  rw [View.read_apply]
  show V m c main_v1 _ = _
  rw [V_bsig]
  refine Eq.trans (congrArg (shapeCast S1x4096 (m ((c : Thread nD τ).loc main_arg4)) shapeCasts_S4096_S1x4096)
    (?_ : _ = ix2 (0 : Fin 1) (tileCol (tileOf t) q))) (shapeCast_a_1a_apply _ _ _ _)
  funext a
  apply Fin.ext
  match a with
  | ⟨0, _⟩ => show win0_5.index t 0 * 1 + 1 * u.val = 0; rw [(bsig_index t).1]; omega
  | ⟨1, _⟩ => show win0_5.index t 1 * 1024 + 1 * q.val = 1024 * (t.val / 16) + q.val; rw [(bsig_index t).2]; omega

/-- The bias-noise block likewise, of `arg6`. -/
theorem bepsBlk_apply (c : Dev nD) (t : Fin cfg0.N) (u : Fin 1) (q : Fin 1024) :
    bepsBlk m c t (ix2 u q) = m ((c : Thread nD τ).loc main_arg6) (ix1 (tileCol (tileOf t) q)) := by
  unfold bepsBlk iblk
  rw [View.read_apply]
  show V m c main_v2 _ = _
  rw [V_beps]
  refine Eq.trans (congrArg (shapeCast S1x4096 (m ((c : Thread nD τ).loc main_arg6)) shapeCasts_S4096_S1x4096)
    (?_ : _ = ix2 (0 : Fin 1) (tileCol (tileOf t) q))) (shapeCast_a_1a_apply _ _ _ _)
  funext a
  apply Fin.ext
  match a with
  | ⟨0, _⟩ => show win0_6.index t 0 * 1 + 1 * u.val = 0; rw [(beps_index t).1]; omega
  | ⟨1, _⟩ => show win0_6.index t 1 * 1024 + 1 * q.val = 1024 * (t.val / 16) + q.val; rw [(beps_index t).2]; omega

end Cert.KernelIdeal.Blocks

end
-- ==== Proof.Payloads.lean ====
/-
  What the kernel body's three stores write, read at an index at the ideal values.

  * the reset block (stored into the accumulator at the first step of a run of the contraction axis) is zero
    everywhere (`reset_apply`);
  * the step (stored into the accumulator at every step) is, at `(p, q)`, what the accumulator held there plus the
    product of row `p` of the `x` block with row `q` of the sampled weight block `mu + eps * sigma`: the narrowing of
    both factors to bf16 is the identity on extended reals, and the matrix product into a zero accumulator along the
    second axis of both factors is `prodRowT` (`step_apply`);
  * the epilogue (stored into the output block at the last step) is, at `(p, q)`, the accumulator there plus entry
    `q` of the sampled bias row, the `[1, 1024]` row laid over the 1024 rows (`epilogue_apply`).
-/
import proofs.«108699_j56573309224151_1_alg».proof.Proof.Gen.KernelIdeal.Skeleton
import proofs.«108699_j56573309224151_1_alg».proof.Proof.SampledLinear
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open Cert.SampledLinear (sampled)
open Cert.DenseRows (prodRowT RowsDot rowsDot_of_axes matmul_zero_rows_apply)

/-- The body's matrix product sums the second axis of both of its `[1024, 256]` operands. -/
theorem rowsDot : RowsDot dot_S1024x256_S1024x256_S1024x1024_1_1_0_0_n_n :=
  rowsDot_of_axes _ rfl rfl rfl rfl rfl rfl

/-- The reset block is zero everywhere. -/
theorem reset_apply (i : S1024x1024.Idx) : k0_pay1 (F := Ideal) i = 0 := by
  unfold k0_pay1
  simp only [shapeCast_self]
  exact Ideal.ofBits_zero_f32

/-- The step: the accumulator plus the block's product `x · (mu + eps * sigma)ᵀ`. -/
theorem step_apply (wmu weps wsig x : Vec Ideal S1024x256 .f32) (acc : Vec Ideal S1024x1024 .f32) (p q : Fin 1024) :
    k0_pay2 (F := Ideal) wmu weps wsig x acc (ix2 p q) = acc (ix2 p q) + prodRowT x (sampled wmu wsig weps) p q := by
  unfold k0_pay2
  simp only [shapeCast_self]
  show acc (ix2 p q) + _ = _
  exact congrArg (acc (ix2 p q) + ·) (matmul_zero_rows_apply rowsDot none _ _ (ix2 p q))

/-- The epilogue: the accumulator plus the sampled bias row's entry at the column. -/
theorem epilogue_apply (bmu beps bsig : Vec Ideal S1x1024 .f32) (acc : Vec Ideal S1024x1024 .f32) (p q : Fin 1024) :
    k0_pay3 (F := Ideal) bmu beps bsig acc (ix2 p q)
      = acc (ix2 p q) + sampled bmu bsig beps (ix2 (0 : Fin 1) q) := by
  unfold k0_pay3
  simp only [shapeCast_self]
  show acc (ix2 p q) + broadcastTo S1024x1024 _ broadcasts_S1x1024_S1024x1024 (ix2 p q) = _
  rw [broadcastTo_1b_ab_apply]
  rfl

end Cert.KernelIdeal.Payload

end
-- ==== Proof.Accumulate.lean ====
/-
  What the accumulator and the output block hold after each grid point, at the ideal values.

  Write `X` for `arg0`, `W` for the sampled weight `arg1 + arg5 * arg2` and `b` for the sampled bias
  `arg3 + arg6 * arg4`. Point `t` is tile `n = t / 16` at step `k = t % 16`.

  * One step adds to the accumulator, at `(p, q)`, block `k`'s part of the product of row `p` of `X` with row
    `1024 n + q` of `W` (`step_block`: the blocks are slices of the arguments).
  * So after point `t` the accumulator holds at `(p, q)` the parts of blocks `0 … k`: at `k = 0` the reset block is
    zero and `0 + a = a`; at a later step the previous point (same tile, step `k - 1`) left the parts of blocks
    `0 … k - 1` (`scratch_eq`, by induction on the point).
  * At the last step `k = 15` the accumulator holds the whole contraction, and the output block is that plus
    `b (1024 n + q)`: entry `(p, 1024 n + q)` of the layer (`tile_eq`).
-/
import proofs.«108699_j56573309224151_1_alg».proof.Proof.Pieces
import proofs.«108699_j56573309224151_1_alg».proof.Proof.Blocks
import proofs.«108699_j56573309224151_1_alg».proof.Proof.Payloads

noncomputable section

namespace Cert.KernelIdeal.Accumulate

open Cert.KernelIdeal Cert.KernelIdeal.Gen Idealize.ShloMosaic Idealize.ShloMosaic.TcCoe Idealize.SL.Sem
open Idealize.ShloMosaic.ValueIdx
open Cert.KernelIdeal.Blocks Cert.KernelIdeal.Pieces Cert.KernelIdeal.Payload
open Cert.SampledLinear (sampled sampled_apply layer layer_apply)
open Cert.BlockedRows (blkCol blockDot partialDot prodRowT_eq_blockDot partialDot_zero partialDot_succ partialDot_last)
open Cert.DenseRows (prodRowT)
open Cert.DenseLayer (Mat)

variable (m : (ℓ : Loc nD τ sig) → Buf (Elt Ideal) ℓ)

/-! ## The arguments -/

/-- `arg0`. -/
abbrev argX (c : Dev nD) : Mat 1024 4096 := m ((c : Thread nD τ).loc main_arg0)
/-- The sampled weight `arg1 + arg5 * arg2`. -/
abbrev argW (c : Dev nD) : Mat 4096 4096 :=
  sampled (S := S4096x4096) (m ((c : Thread nD τ).loc main_arg1)) (m ((c : Thread nD τ).loc main_arg2)) (m ((c : Thread nD τ).loc main_arg5))
/-- The sampled bias `arg3 + arg6 * arg4`. -/
abbrev argB (c : Dev nD) : (⟨1, ![4096]⟩ : Shape).Idx → EReal :=
  sampled (S := S4096) (m ((c : Thread nD τ).loc main_arg3)) (m ((c : Thread nD τ).loc main_arg4)) (m ((c : Thread nD τ).loc main_arg6))

/-! ## One step -/

/-- The step's block product at point `t` is the step's block's part of `X · Wᵀ` at the tile's column. -/
theorem step_block (c : Dev nD) (t : Fin cfg0.N) (p q : Fin 1024) :
    prodRowT (xBlk m c t) (sampled (wmuBlk m c t) (wsigBlk m c t) (wepsBlk m c t)) p q
      = blockDot hK (argX m c) (argW m c) p (tileCol (tileOf t) q) (stepOf t) :=
  prodRowT_eq_blockDot hK (xBlk m c t) (sampled (wmuBlk m c t) (wsigBlk m c t) (wepsBlk m c t)) (argX m c) (argW m c)
    p q p (tileCol (tileOf t) q) (stepOf t) (fun j => xBlk_apply m c t p j)
    (fun j => by rw [sampled_apply, wmuBlk_apply, wsigBlk_apply, wepsBlk_apply]; rfl)

/-- The bias blocks at point `t` hold the tile's entries of the sampled bias. -/
theorem bias_block (c : Dev nD) (t : Fin cfg0.N) (q : Fin 1024) :
    sampled (bmuBlk m c t) (bsigBlk m c t) (bepsBlk m c t) (ix2 (0 : Fin 1) q) = argB m c (ix1 (tileCol (tileOf t) q)) := by
  rw [sampled_apply, bmuBlk_apply, bsigBlk_apply, bepsBlk_apply]
  rfl

/-- At a first step the accumulator ends at the first block's part. -/
theorem scratch_at_first (c : Dev nD) (t : Fin cfg0.N) (h0 : t.val % 16 = 0) (h1 : ¬t.val % 16 = 15) (p q : Fin 1024) :
    (outsAt0 m c t.val t.isLt).2 (ix2 p q) = blockDot hK (argX m c) (argW m c) p (tileCol (tileOf t) q) (stepOf t) := by
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 p q)).trans ?_
  refine (step_apply (wmuBlk m c t) (wepsBlk m c t) (wsigBlk m c t) (xBlk m c t) (k0_pay1 (F := Ideal)) p q).trans ?_
  rw [reset_apply, zero_add]
  exact step_block m c t p q

/-- At a middle step it grows by the step's block's part. -/
theorem scratch_at_middle (c : Dev nD) (t : Fin cfg0.N) (h0 : ¬t.val % 16 = 0) (h1 : ¬t.val % 16 = 15) (p q : Fin 1024) :
    (outsAt0 m c t.val t.isLt).2 (ix2 p q)
      = (outsAt0 m c (t.val - 1) (Nat.lt_of_le_of_lt (Nat.sub_le _ _) t.isLt)).2 (ix2 p q) + blockDot hK (argX m c) (argW m c) p (tileCol (tileOf t) q) (stepOf t) := by
  rw [outsAt0_B m c t h0 h1]
  dsimp only
  refine (congrFun (scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p q)).trans ?_
  refine (step_apply (wmuBlk m c t) (wepsBlk m c t) (wsigBlk m c t) (xBlk m c t) (outsAt0 m c (t.val - 1) (Nat.lt_of_le_of_lt (Nat.sub_le _ _) t.isLt)).2 p q).trans ?_
  rw [step_block]

/-- At the last step likewise … -/
theorem scratch_at_last (c : Dev nD) (t : Fin cfg0.N) (h0 : ¬t.val % 16 = 0) (h1 : t.val % 16 = 15) (p q : Fin 1024) :
    (outsAt0 m c t.val t.isLt).2 (ix2 p q)
      = (outsAt0 m c (t.val - 1) (Nat.lt_of_le_of_lt (Nat.sub_le _ _) t.isLt)).2 (ix2 p q) + blockDot hK (argX m c) (argW m c) p (tileCol (tileOf t) q) (stepOf t) := by
  rw [outsAt0_C m c t h0 h1]
  dsimp only
  refine (congrFun (scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p q)).trans ?_
  refine (step_apply (wmuBlk m c t) (wepsBlk m c t) (wsigBlk m c t) (xBlk m c t) (outsAt0 m c (t.val - 1) (Nat.lt_of_le_of_lt (Nat.sub_le _ _) t.isLt)).2 p q).trans ?_
  rw [step_block]

/-- … and the output block ends at the accumulator plus the tile's entry of the sampled bias. -/
theorem out_at_last (c : Dev nD) (t : Fin cfg0.N) (h0 : ¬t.val % 16 = 0) (h1 : t.val % 16 = 15) (p q : Fin 1024) :
    (outsAt0 m c t.val t.isLt).1 (ix2 p q)
      = (outsAt0 m c t.val t.isLt).2 (ix2 p q) + argB m c (ix1 (tileCol (tileOf t) q)) := by
  rw [outsAt0_C m c t h0 h1]
  dsimp only
  refine (congrFun (out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p q)).trans ?_
  refine (epilogue_apply (bmuBlk m c t) (bepsBlk m c t) (bsigBlk m c t) _ p q).trans ?_
  rw [bias_block]
  exact congrArg (· + argB m c (ix1 (tileCol (tileOf t) q)))
    (congrFun (scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) (ix2 p q)).symm

/-! ## The accumulator after any point -/

/-- After point `n` the accumulator holds the parts of blocks `0 … n % 16` of the tile's products. -/
theorem scratch_eq (c : Dev nD) (n : ℕ) : ∀ (h : n < cfg0.N) (p q : Fin 1024),
    (outsAt0 m c n h).2 (ix2 p q)
      = partialDot hK (argX m c) (argW m c) p (tileCol (tileOf ⟨n, h⟩) q) (n % 16) := by
  induction n with
  | zero =>
    intro h p q
    refine (scratch_at_first m c ⟨0, h⟩ rfl (by show ¬(0 : ℕ) % 16 = 15; decide) p q).trans ?_
    exact (partialDot_zero hK (argX m c) (argW m c) p (tileCol (tileOf ⟨0, h⟩) q) (by decide)).symm
  | succ n ih =>
    intro h p q
    have hN : n + 1 < 64 := lt64 ⟨n + 1, h⟩
    by_cases h0 : (n + 1) % 16 = 0
    · have h1 : ¬(n + 1) % 16 = 15 := by omega
      refine (scratch_at_first m c ⟨n + 1, h⟩ h0 h1 p q).trans ?_
      rw [h0, partialDot_zero hK (argX m c) (argW m c) p (tileCol (tileOf ⟨n + 1, h⟩) q) (by decide)]
      exact congrArg (blockDot hK (argX m c) (argW m c) p (tileCol (tileOf ⟨n + 1, h⟩) q)) (Fin.ext h0)
    · have hk : (n + 1) % 16 = n % 16 + 1 := by omega
      have hlt : n % 16 + 1 < 16 := by omega
      have htile : tileOf ⟨n + 1, h⟩ = tileOf ⟨n, Nat.lt_of_succ_lt h⟩ := Fin.ext (by
        show (n + 1) / 16 = n / 16; omega)
      have hstep : stepOf ⟨n + 1, h⟩ = ⟨n % 16 + 1, hlt⟩ := Fin.ext hk
      have hprev := ih (Nat.lt_of_succ_lt h) p q
      rw [hk, partialDot_succ hK (argX m c) (argW m c) p (tileCol (tileOf ⟨n + 1, h⟩) q) (n % 16) hlt, htile, ← hprev,
        ← hstep, ← htile]
      by_cases h1 : (n + 1) % 16 = 15
      · exact scratch_at_last m c ⟨n + 1, h⟩ h0 h1 p q
      · exact scratch_at_middle m c ⟨n + 1, h⟩ h0 h1 p q

/-! ## The output block at a last step -/

/-- At a last step the output block holds the layer's entries of the tile. -/
theorem tile_eq (c : Dev nD) (t : Fin cfg0.N) (h1 : t.val % 16 = 15) (p q : Fin 1024) :
    (outsAt0 m c t.val t.isLt).1 (ix2 p q)
      = layer (argX m c) (m ((c : Thread nD τ).loc main_arg1)) (m ((c : Thread nD τ).loc main_arg2))
          (m ((c : Thread nD τ).loc main_arg5)) (m ((c : Thread nD τ).loc main_arg3))
          (m ((c : Thread nD τ).loc main_arg4)) (m ((c : Thread nD τ).loc main_arg6)) (ix2 p (tileCol (tileOf t) q)) := by
  have h0 : ¬t.val % 16 = 0 := by omega
  rw [out_at_last m c t h0 h1 p q, scratch_eq m c t.val t.isLt p q, h1,
    partialDot_last hK (argX m c) (argW m c) p (tileCol (tileOf t) q) 15 rfl, layer_apply]

end Cert.KernelIdeal.Accumulate

end
-- ==== Proof.KernelValue.lean ====
/-
  The idealized kernel's result array is the layer of its arguments.

  The output window is written back at the last step of each tile, `t % 16 = 15`, to columns
  `1024 (t / 16) … 1024 (t / 16) + 1023` of all 1024 rows. What is written there is the layer's entries of that
  tile (`Accumulate.tile_eq`), so every write-back is a block of ONE whole-array function, `result`
  (`flushed_eq`). The four tiles' blocks cover the array: column `j` lies in tile `j / 1024`, written back at
  point `16 (j / 1024) + 15` (`cover`). Hence the array ends holding `result` (`final`), and the run ends
  there with the arguments unchanged (`run`).
-/
import proofs.«108699_j56573309224151_1_alg».proof.Proof.Gen.KernelIdeal.Value
import proofs.«108699_j56573309224151_1_alg».proof.Proof.Accumulate

noncomputable section

namespace Cert.KernelIdeal.RefValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Blocks Cert.KernelIdeal.Accumulate
open Cert.SampledLinear (layer)

variable (m : (ℓ : Loc nD τ sig) → Buf (Elt Ideal) ℓ) (ρ : Dev nD → PrngReg)

/-- The layer of the seven arguments, as contents of the result array. -/
abbrev result (c : Dev nD) : Buf (Elt Ideal) ((c : Thread nD τ).loc main_v3) :=
  layer (argX m c) (m ((c : Thread nD τ).loc main_arg1)) (m ((c : Thread nD τ).loc main_arg2))
    (m ((c : Thread nD τ).loc main_arg5)) (m ((c : Thread nD τ).loc main_arg3))
    (m ((c : Thread nD τ).loc main_arg4)) (m ((c : Thread nD τ).loc main_arg6))

/-- What a write-back writes is the block of `result` it writes to. -/
theorem flushed_eq (c : Dev nD) (t : Fin cfg0.N) (hf : (cfg0.win 7).flush t = true) :
    (dats m 0 c).flushed 7 t = ((cfg0.win 7).blk t).view.read (Elt Ideal) (result m c) := by
  have h1 : t.val % 16 = 15 := (flush0_7 t).mp hf
  rw [Value.flushed7 m c t]
  funext y
  show (outsAt0 m c t.val t.isLt).1 y = result m c (((cfg0.win 7).blk t).view.emb y)
  have hy : (y : S1024x1024.Idx) = ix2 (y 0) (y 1) := eq_ix2 y
  have he : ((cfg0.win 7).blk t).view.emb y = ix2 (y 0 : Fin 1024) (tileCol (tileOf t) (y 1)) := by
    funext a
    apply Fin.ext
    match a with
    | ⟨0, _⟩ => show win0_7.index t 0 * 1024 + 1 * (y 0).val = (y 0).val; rw [(out_index t).1]; omega
    | ⟨1, _⟩ => show win0_7.index t 1 * 1024 + 1 * (y 1).val = 1024 * (t.val / 16) + (y 1).val; rw [(out_index t).2]; omega
  rw [he]
  exact (congrArg (outsAt0 m c t.val t.isLt).1 hy).trans (tile_eq m c t h1 (y 0) (y 1))

/-- An index of the array is in point `t`'s block iff each coordinate is in the block's range on its axis. -/
theorem mem_blk (t : Fin cfg0.N) (i : S1024x4096.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v3).slice (win0_7.rect t)).set ↔ _
  rw [View.set_slice_whole, Rect.mem_set_unit]
  exact Iff.rfl

/-- Every index of the array is in the block some tile's last step writes back. -/
theorem cover (i : S1024x4096.Idx) :
    ∃ t : Fin cfg0.N, (cfg0.win 7).flush t = true ∧ i ∈ ((cfg0.win 7).blk t).view.set := by
  have hi0 : (i 0).val < 1024 := (i 0).isLt
  have hi1 : (i 1).val < 4096 := (i 1).isLt
  have hN : cfg0.N = 64 := N_0
  have hlt : 16 * ((i 1).val / 1024) + 15 < cfg0.N := by rw [hN]; omega
  refine ⟨⟨16 * ((i 1).val / 1024) + 15, hlt⟩, (flush0_7 _).mpr (by show (16 * ((i 1).val / 1024) + 15) % 16 = 15; omega), ?_⟩
  rw [mem_blk]
  obtain ⟨e0, e1⟩ := out_index ⟨16 * ((i 1).val / 1024) + 15, hlt⟩
  have e1' : win0_7.index ⟨16 * ((i 1).val / 1024) + 15, hlt⟩ (1 : Fin 2) = (16 * ((i 1).val / 1024) + 15) / 16 := e1
  intro a
  match a with
  | ⟨0, _⟩ =>
    show win0_7.index ⟨16 * ((i 1).val / 1024) + 15, hlt⟩ (0 : Fin 2) * 1024 ≤ (i 0).val ∧ (i 0).val < win0_7.index ⟨16 * ((i 1).val / 1024) + 15, hlt⟩ (0 : Fin 2) * 1024 + 1024
    rw [e0]; omega
  | ⟨1, _⟩ =>
    show win0_7.index ⟨16 * ((i 1).val / 1024) + 15, hlt⟩ (1 : Fin 2) * 1024 ≤ (i 1).val ∧ (i 1).val < win0_7.index ⟨16 * ((i 1).val / 1024) + 15, hlt⟩ (1 : Fin 2) * 1024 + 1024
    rw [e1']; omega

/-- The result array ends holding the layer. -/
theorem final (c : Dev nD) : (dats m 0 c).arrAt 7 cfg0.N = result m c :=
  (dats m 0 c).arrAt_eq_of_cover 7 (result m c) (flushed_eq m c) cover

/-- The run: the result array at the layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.RefValue

end
-- ==== Proof.lean ====
/-
  A linear layer with sampled parameters: the tiled kernel and the one-line reference compute the same function over
  the extended reals.

  Both programs take `x : [1024, 4096]`, a weight mean, deviation and noise `[4096, 4096]` and a bias mean, deviation
  and noise `[4096]`. With `W = mean + noise * deviation` and `b` likewise, the result at `(r, q)` is
  `∑ i, x (r, i) * W (q, i) + b q` (`SampledLinear.layer`).

  * The reference forms `W` and `b` whole, contracts the second axes of `x` and `W`, and adds `b` as a row laid over
    the rows (`ReferenceIdeal.RefValue.result_eq`).
  * The kernel walks a `4 × 16` grid: tile `n` of 1024 output columns, step `k` over 256 contracted columns. It
    zeroes an accumulator at `k = 0`, adds the block's product `x_blk · (W_blk)ᵀ` at every step (the narrowing of both
    factors is the identity on extended reals), and at `k = 15` writes the accumulator plus the bias tile to the
    output tile. After step `k` the accumulator holds the sum of the parts of blocks `0 … k` (induction on the
    point), after the last step the whole contraction: regrouping a finite sum into consecutive blocks uses only
    commutativity and associativity of addition, so no finiteness of the inputs is needed
    (`KernelIdeal.Accumulate`, `KernelIdeal.RefValue.run`).

  The three frames are the generated ones (the reference's is its run with the result dropped); the idealization
  rewrote nothing, so `preserves` is `True`.
-/
import proofs.«108699_j56573309224151_1_alg».proof.Defs
import proofs.«108699_j56573309224151_1_alg».proof.Proof.Gen.Kernel
import proofs.«108699_j56573309224151_1_alg».proof.Proof.Gen.Kernel.Skeleton
import proofs.«108699_j56573309224151_1_alg».proof.Proof.Gen.Kernel.Launch
import proofs.«108699_j56573309224151_1_alg».proof.Proof.Gen.Kernel.Points
import proofs.«108699_j56573309224151_1_alg».proof.Proof.Gen.Kernel.Frame
import proofs.«108699_j56573309224151_1_alg».proof.Proof.Gen.KernelIdeal
import proofs.«108699_j56573309224151_1_alg».proof.Proof.Gen.KernelIdeal.Skeleton
import proofs.«108699_j56573309224151_1_alg».proof.Proof.Gen.KernelIdeal.Launch
import proofs.«108699_j56573309224151_1_alg».proof.Proof.Gen.KernelIdeal.Points
import proofs.«108699_j56573309224151_1_alg».proof.Proof.Gen.KernelIdeal.Frame
import proofs.«108699_j56573309224151_1_alg».proof.Proof.Gen.ReferenceIdeal
import proofs.«108699_j56573309224151_1_alg».proof.Proof.Gen.Pre_finite_inputs
import proofs.«108699_j56573309224151_1_alg».proof.Proof.Gen.KernelIdeal.Value
import proofs.«108699_j56573309224151_1_alg».proof.Proof.Gen.ReferenceIdeal.Run
import proofs.«108699_j56573309224151_1_alg».proof.Proof.Gen.ReferenceIdeal.Read
import proofs.«108699_j56573309224151_1_alg».proof.Proof.RefValue
import proofs.«108699_j56573309224151_1_alg».proof.Proof.KernelValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the layer of those arguments in their result arrays. -/
theorem algebraic : Cert.algebraic_KernelIdeal_ReferenceIdeal := by
  intro m ρ m' ρ' _ hagree
  refine ⟨fun c => Cert.KernelIdeal.RefValue.result m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v7_eq, Cert.ReferenceIdeal.RefValue.result_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
